-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S512 : Shape := ⟨1, ![512]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

abbrev nBuf : Space → Nat
  | .hbm => 11
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1, .f32⟩
  | .local _ .vmem, ⟨11, _⟩ => ⟨S512x1, .f32⟩
  | .local _ .vmem, ⟨12, _⟩ => ⟨S1024x256, .bf16⟩
  | .local _ .vmem, ⟨13, _⟩ => ⟨S1024x256, .bf16⟩
  | .local _ .vmem, ⟨14, _⟩ => ⟨S8192x256, .bf16⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def k1_mult1 : BitVec 32 :=
  let c0_i32 : BitVec 32 := 0#32
  let c1024_i32 : BitVec 32 := 1024#32
  let v1 : BitVec 32 := Scalar.muli c0_i32 c1024_i32
  v1
def k1_off1 (c0_i32 : BitVec 32) : Fin 2 → Nat :=
  let c1024_i32 : BitVec 32 := 1024#32
  let v1 : BitVec 32 := Scalar.muli c0_i32 c1024_i32
  let v2 : BitVec 32 := v1
  let v3 : Index := Scalar.indexCast v2
  let c0 : Index := 0#32
  ![v3.toNat, 0]
def k1_mult2 : BitVec 32 :=
  let c1_i32 : BitVec 32 := 1#32
  let c1024_i32_5 : BitVec 32 := 1024#32
  let v16 : BitVec 32 := Scalar.muli c1_i32 c1024_i32_5
  v16
def k1_mult3 : BitVec 32 :=
  let c2_i32 : BitVec 32 := 2#32
  let c1024_i32_12 : BitVec 32 := 1024#32
  let v31 : BitVec 32 := Scalar.muli c2_i32 c1024_i32_12
  v31
def k1_mult4 : BitVec 32 :=
  let c3_i32 : BitVec 32 := 3#32
  let c1024_i32_19 : BitVec 32 := 1024#32
  let v46 : BitVec 32 := Scalar.muli c3_i32 c1024_i32_19
  v46
def k1_mult5 : BitVec 32 :=
  let c4_i32 : BitVec 32 := 4#32
  let c1024_i32_26 : BitVec 32 := 1024#32
  let v61 : BitVec 32 := Scalar.muli c4_i32 c1024_i32_26
  v61
def k1_mult6 : BitVec 32 :=
  let c5_i32 : BitVec 32 := 5#32
  let c1024_i32_33 : BitVec 32 := 1024#32
  let v76 : BitVec 32 := Scalar.muli c5_i32 c1024_i32_33
  v76
def k1_mult7 : BitVec 32 :=
  let c6_i32 : BitVec 32 := 6#32
  let c1024_i32_40 : BitVec 32 := 1024#32
  let v91 : BitVec 32 := Scalar.muli c6_i32 c1024_i32_40
  v91
def k1_mult8 : BitVec 32 :=
  let c7_i32 : BitVec 32 := 7#32
  let c1024_i32_47 : BitVec 32 := 1024#32
  let v106 : BitVec 32 := Scalar.muli c7_i32 c1024_i32_47
  v106
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  transposes_S1024x256_p1_0_S256x1024 : S1024x256.Transposes [1, 0] S256x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .bf16 = 32 ∨ (Rect.block (s := S8192x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .bf16 = 32 ∨ (Rect.block (s := S8192x256) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hrank1 : 0 < grid1.rank
  k1_mult1_dvd : 1024 ∣ k1_mult1.toNat
  k1_off1_inb : ∀ (r : Fin 8), ∀ a, (k1_off1 (BitVec.ofNat 32 r.val)) a + S1024x256.size a ≤ S8192x256.size a
  k1_mult2_dvd : 1024 ∣ k1_mult2.toNat
  k1_mult3_dvd : 1024 ∣ k1_mult3.toNat
  k1_mult4_dvd : 1024 ∣ k1_mult4.toNat
  k1_mult5_dvd : 1024 ∣ k1_mult5.toNat
  k1_mult6_dvd : 1024 ∣ k1_mult6.toNat
  k1_mult7_dvd : 1024 ∣ k1_mult7.toNat
  k1_mult8_dvd : 1024 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The contrastive (NT-Xent) loss both programs compute, as one function of the three embedding arrays,
  index by index on the extended reals; and the two laws that join the programs' two spellings of it:
  a division by one half is a product with two, and a sum over 8192 columns is the sum of its eight
  consecutive runs of 1024.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An 8192 × 256 array of extended reals: an embedding batch, one row per sample. -/
abbrev Mat : Type := (⟨2, ![8192, 256]⟩ : Shape).Idx → EReal
/-- An 8192 × 1 column of extended reals: one number per sample. -/
abbrev Col : Type := (⟨2, ![8192, 1]⟩ : Shape).Idx → EReal

/-- The clamp under the norm (the f32 nearest 1e-12, the same word in both programs). -/
def eps : EReal := Ideal.ofBits .f32 0x2B8CBCCC#32
/-- The inverse temperature, 2. -/
def two : EReal := Ideal.ofBits .f32 0x40000000#32
/-- The temperature, 1/2. -/
def half : EReal := Ideal.ofBits .f32 0x3F000000#32
/-- The batch size 8192 as a float. -/
def cnt : EReal := Ideal.ofBits .f32 0x46000000#32

/-- The Euclidean norm of row b. -/
def nrm (x : Mat) (b : Fin 8192) : EReal := Ideal.sqrt (∑ d : Fin 256, x (ix2 b d) * x (ix2 b d))
/-- Row b divided by its clamped norm, at column d. -/
def unitRow (x : Mat) (b : Fin 8192) (d : Fin 256) : EReal := Ideal.div (x (ix2 b d)) (max (nrm x b) eps)
/-- The positive logit before the temperature: normalized row b of the first array against normalized row b of the second. -/
def pos (xi xj : Mat) (b : Fin 8192) : EReal := ∑ d : Fin 256, unitRow xi b d * unitRow xj b d
/-- The negative similarity: normalized row b of the first array against normalized row k of the third. -/
def sim (xi xk : Mat) (b k : Fin 8192) : EReal := ∑ d : Fin 256, unitRow xi b d * unitRow xk k d
/-- Sample b's loss: log (e^{2 pos} + Σ_k e^{2 sim b k}) - 2 pos. -/
def rowLoss (xi xj xk : Mat) (b : Fin 8192) : EReal :=
  Ideal.log (Ideal.exp (pos xi xj b * two) + ∑ k : Fin 8192, Ideal.exp (sim xi xk b k * two)) - pos xi xj b * two
/-- The mean of the samples' losses. -/
def loss (xi xj xk : Mat) : EReal := Ideal.div (∑ b : Fin 8192, rowLoss xi xj xk b) cnt

/-- Sample b's loss from ALREADY normalized rows u (first array), w (third array) and a column p of positive logits:
    what the second kernel computes from the first kernel's three outputs. -/
def rowLossOf (u w : Mat) (p : Col) (b : Fin 8192) : EReal :=
  Ideal.log (Ideal.exp (p (ix2 b 0) * two) + ∑ k : Fin 8192, Ideal.exp ((∑ d : Fin 256, u (ix2 b d) * w (ix2 k d)) * two))
    - p (ix2 b 0) * two

/-- Fed the normalized rows and the positive logits, it is the sample's loss. -/
theorem rowLossOf_unit (xi xj xk : Mat) (b : Fin 8192) :
    rowLossOf (fun i => unitRow xi (i 0) (i 1)) (fun i => unitRow xk (i 0) (i 1)) (fun i => pos xi xj (i 0)) b
      = rowLoss xi xj xk b := rfl

/-- The words: one half and two as reals. -/
theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num

/-- Dividing by the temperature one half is multiplying by two, on every extended real. -/
theorem div_half (x : EReal) : Ideal.div x half = x * two := by
  rw [half_eq, two_eq, Ideal.div_coe (by norm_num : (1 / 2 : ℝ) ≠ 0)]
  norm_num

/-- A sum over 8192 columns is the sum of its eight consecutive runs of 1024 columns. -/
theorem sum_chunks {M : Type*} [AddCommMonoid M] (f : Fin 8192 → M) :
    ∑ k : Fin 8192, f k = ∑ c : Fin 8, ∑ j : Fin 1024, f ⟨c.val * 1024 + j.val, by omega⟩ := by
  rw [← Fintype.sum_prod_type' (fun (c : Fin 8) (j : Fin 1024) => f ⟨c.val * 1024 + j.val, by omega⟩)]
  refine (Fintype.sum_equiv (finProdFinEquiv (m := 8) (n := 1024)) _ _ fun p => ?_).symm
  congr 1
  apply Fin.ext
  show p.1.val * 1024 + p.2.val = p.2.val + 1024 * p.1.val
  omega

end Cert.Spec

end
-- ==== Proof.Reg0.lean ====
/-
  The first kernel (normalize rows, positive logits) read as whole arrays: grid point t handles rows
  512 t … 512 t + 511; each row of an output depends on that row of the inputs only, so the sixteen
  blocks are the restrictions of one function of the argument arrays.
-/
import proofs.«161965_j29953101922499_1_alg».proof.Proof.Gen.KernelIdeal.Frame
import proofs.«161965_j29953101922499_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when a kernel is entered: a parameter, which the run instantiates per kernel
variable (V : (c : Dev nD) → (b : Ref sig .tc) → Buf (Elt Ideal) ((c : Thread nD τ).loc b))

/-- The normalized first array. -/
abbrev ziArr (c : Dev nD) : Buf (Elt Ideal) ((c : Thread nD τ).loc main_v0_0) :=
  fun i => Spec.unitRow (V c main_arg0) (i 0) (i 1)
/-- The normalized third array. -/
abbrev zkArr (c : Dev nD) : Buf (Elt Ideal) ((c : Thread nD τ).loc main_v0_1) :=
  fun i => Spec.unitRow (V c main_arg2) (i 0) (i 1)
/-- The positive logits (before the temperature). -/
abbrev posArr (c : Dev nD) : Buf (Elt Ideal) ((c : Thread nD τ).loc main_v0_2) :=
  fun i => Spec.pos (V c main_arg0) (V c main_arg1) (i 0)

/-! ## The body's values at an index -/

/-- The lane sum of a block read at row `r`: the sum over that row's entries. -/
theorem laneSum_apply (y : FVec Ideal S512x256 .f32) (r : Fin 512) :
    multiReduction (F := Ideal) .add [1] S512 y 0x00000000#32 reduces_S512x256_S512 (.inl rfl) rfl (ix1 r)
      = ∑ d : Fin 256, y (ix2 r d) := by
  refine (Ideal.multiReduction_add_single y _ reduces_S512x256_S512 _ _ (ix1 r)).trans ?_
  refine Finset.sum_congr rfl fun d _ => congrArg y ?_
  funext a; apply Fin.ext
  match a with
  | ⟨0, _⟩ => rfl
  | ⟨1, _⟩ => rfl

/-- A vector of 512 entries stood up as a column: entry (r, 0) is entry r. -/
theorem column_apply {α : Type} (v : S512.Idx → α) (r : Fin 512) (z : Fin 1) :
    shapeCast S512x1 v shapeCasts_S512_S512x1 (ix2 r z) = v (ix1 r) := by
  refine shapeCast_apply v _ _ _ ?_
  rw [Shape.rowMajor_val_one, Shape.rowMajor_val_two]
  show r.val = r.val * 1 + z.val
  have := z.isLt; omega

/-- A column laid along 256 lanes: entry (r, d) is the column's entry (r, 0). -/
theorem lanes_apply {α : Type} (v : S512x1.Idx → α) (r : Fin 512) (d : Fin 256) :
    broadcastTo S512x256 v broadcasts_S512x1_S512x256 (ix2 r d) = v (ix2 r 0) := by
  refine broadcastTo_apply v _ _ _ ?_
  intro a
  match a with
  | ⟨0, _⟩ => rfl
  | ⟨1, _⟩ => rfl

/-- The normalized block at (r, d): the entry over the larger of the row's length and the floor. -/
theorem pay1_apply (x : Vec Ideal S512x256 .f32) (r : Fin 512) (d : Fin 256) :
    k0_pay1 (F := Ideal) x (ix2 r d)
      = Ideal.div (x (ix2 r d)) (max (Ideal.sqrt (∑ d' : Fin 256, x (ix2 r d') * x (ix2 r d'))) Spec.eps) := by
  unfold k0_pay1
  show Ideal.div (x (ix2 r d)) (broadcastTo S512x256 _ broadcasts_S512x1_S512x256 (ix2 r d)) = _
  rw [lanes_apply]
  show Ideal.div (x (ix2 r d)) (max (Ideal.sqrt (shapeCast S512x1 _ shapeCasts_S512_S512x1 (ix2 r 0))) _) = _
  rw [column_apply, laneSum_apply]
  rfl

/-- The first output's block at (r, d): rounding is the identity on the extended reals. -/
theorem pay3_apply (x : Vec Ideal S512x256 .f32) (r : Fin 512) (d : Fin 256) :
    k0_pay3 (F := Ideal) x (ix2 r d)
      = Ideal.div (x (ix2 r d)) (max (Ideal.sqrt (∑ d' : Fin 256, x (ix2 r d') * x (ix2 r d'))) Spec.eps) :=
  pay1_apply x r d

/-- The second output's block at (r, d): the same function of its own input block. -/
theorem pay4_apply (x : Vec Ideal S512x256 .f32) (r : Fin 512) (d : Fin 256) :
    k0_pay4 (F := Ideal) x (ix2 r d)
      = Ideal.div (x (ix2 r d)) (max (Ideal.sqrt (∑ d' : Fin 256, x (ix2 r d') * x (ix2 r d'))) Spec.eps) := by
  unfold k0_pay4
  show Ideal.div (x (ix2 r d)) (broadcastTo S512x256 _ broadcasts_S512x1_S512x256 (ix2 r d)) = _
  rw [lanes_apply]
  show Ideal.div (x (ix2 r d)) (max (Ideal.sqrt (shapeCast S512x1 _ shapeCasts_S512_S512x1 (ix2 r 0))) _) = _
  rw [column_apply, laneSum_apply]
  rfl

/-- The third output's block at (r, 0): the inner product of the two normalized rows. -/
theorem pay2_apply (x0 x1 : Vec Ideal S512x256 .f32) (r : Fin 512) (z : Fin 1) :
    k0_pay2 (F := Ideal) x0 x1 (ix2 r z)
      = ∑ d : Fin 256,
          Ideal.div (x0 (ix2 r d)) (max (Ideal.sqrt (∑ d' : Fin 256, x0 (ix2 r d') * x0 (ix2 r d'))) Spec.eps)
          * Ideal.div (x1 (ix2 r d)) (max (Ideal.sqrt (∑ d' : Fin 256, x1 (ix2 r d') * x1 (ix2 r d'))) Spec.eps) := by
  unfold k0_pay2
  show shapeCast S512x1 _ shapeCasts_S512_S512x1 (ix2 r z) = _
  rw [column_apply, laneSum_apply]
  refine Finset.sum_congr rfl fun d _ => ?_
  show k0_pay1 (F := Ideal) x0 (ix2 r d)
      * Ideal.div (x1 (ix2 r d)) (broadcastTo S512x256 _ broadcasts_S512x1_S512x256 (ix2 r d)) = _
  rw [pay1_apply, lanes_apply]
  show _ * Ideal.div (x1 (ix2 r d)) (max (Ideal.sqrt (shapeCast S512x1 _ shapeCasts_S512_S512x1 (ix2 r 0))) _) = _
  rw [column_apply, laneSum_apply]
  rfl

/-! ## The blocks inside the arrays -/

theorem origin2 : (![0, 0] : Fin 2 → Nat) = fun _ => 0 := funext fun a => by fin_cases a <;> rfl

/-- Every window of the first kernel moves down the rows with the grid point and never sideways (the printed index
    maps, decided once over the sixteen points). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of the block of grid point `t` is row `512 t + p` of the array. -/
def rowOf (t : Fin cfg0.N) (p : Fin 512) : Fin 8192 :=
  ⟨t.val * 512 + p.val, by have ht : t.val < 16 := t.isLt; have := p.isLt; omega⟩

/-- The three input blocks at grid point `t`, at their literal type. -/
abbrev blkI (c : Dev nD) (t : Fin cfg0.N) : Vec Ideal S512x256 .f32 := iblk0 V c 0 t
abbrev blkJ (c : Dev nD) (t : Fin cfg0.N) : Vec Ideal S512x256 .f32 := iblk0 V c 1 t
abbrev blkK (c : Dev nD) (t : Fin cfg0.N) : Vec Ideal S512x256 .f32 := iblk0 V c 2 t

theorem blkI_apply (c : Dev nD) (t : Fin cfg0.N) (p : Fin 512) (q : Fin 256) :
    blkI V c t (ix2 p q) = V c main_arg0 (ix2 (rowOf t p) q) := by
  show V c main_arg0 (((cfg0.win 0).blk t).view.emb (ix2 p q)) = _
  refine congrArg (V c main_arg0) ?_
  obtain ⟨e00, e01, e10, e11, e20, e21, e30, e31, e40, e41, e50, e51⟩ := blockIndex t
  funext a; apply Fin.ext
  match a with
  | ⟨0, _⟩ => show win0_0.index t (0 : Fin 2) * 512 + 1 * p.val = t.val * 512 + p.val; omega
  | ⟨1, _⟩ => show win0_0.index t (1 : Fin 2) * 256 + 1 * q.val = q.val; omega

theorem blkJ_apply (c : Dev nD) (t : Fin cfg0.N) (p : Fin 512) (q : Fin 256) :
    blkJ V c t (ix2 p q) = V c main_arg1 (ix2 (rowOf t p) q) := by
  show V c main_arg1 (((cfg0.win 1).blk t).view.emb (ix2 p q)) = _
  refine congrArg (V c main_arg1) ?_
  obtain ⟨e00, e01, e10, e11, e20, e21, e30, e31, e40, e41, e50, e51⟩ := blockIndex t
  funext a; apply Fin.ext
  match a with
  | ⟨0, _⟩ => show win0_1.index t (0 : Fin 2) * 512 + 1 * p.val = t.val * 512 + p.val; omega
  | ⟨1, _⟩ => show win0_1.index t (1 : Fin 2) * 256 + 1 * q.val = q.val; omega

theorem blkK_apply (c : Dev nD) (t : Fin cfg0.N) (p : Fin 512) (q : Fin 256) :
    blkK V c t (ix2 p q) = V c main_arg2 (ix2 (rowOf t p) q) := by
  show V c main_arg2 (((cfg0.win 2).blk t).view.emb (ix2 p q)) = _
  refine congrArg (V c main_arg2) ?_
  obtain ⟨e00, e01, e10, e11, e20, e21, e30, e31, e40, e41, e50, e51⟩ := blockIndex t
  funext a; apply Fin.ext
  match a with
  | ⟨0, _⟩ => show win0_2.index t (0 : Fin 2) * 512 + 1 * p.val = t.val * 512 + p.val; omega
  | ⟨1, _⟩ => show win0_2.index t (1 : Fin 2) * 256 + 1 * q.val = q.val; omega

/-! ## What each grid point writes back -/

/-- A block's row normalized is the array's row normalized, once the block's row IS the array's row: the row's
    length is a sum over that row's entries only. -/
theorem unit_of_row (x : Vec Ideal S512x256 .f32) (A : Spec.Mat) (p : Fin 512) (b : Fin 8192)
    (h : ∀ d : Fin 256, x (ix2 p d) = A (ix2 b d)) (q : Fin 256) :
    Ideal.div (x (ix2 p q)) (max (Ideal.sqrt (∑ d' : Fin 256, x (ix2 p d') * x (ix2 p d'))) Spec.eps)
      = Spec.unitRow A b q := by
  have hs : (∑ d' : Fin 256, x (ix2 p d') * x (ix2 p d')) = ∑ d' : Fin 256, A (ix2 b d') * A (ix2 b d') :=
    Finset.sum_congr rfl fun d _ => by rw [h d]
  unfold Spec.unitRow Spec.nrm
  rw [h q, hs]

theorem zi_flushed (c : Dev nD) (t : Fin cfg0.N) :
    (dat0 V c).flushed 3 t = ((cfg0.win 3).blk t).view.read (Elt Ideal) (ziArr V c) := by
  show (cfg0.win 3).cut (grid0.coords t) ((dat0 V c).after 3 t) = _
  rw [after0_3]
  unfold out0_3
  rw [View.canon_unit_zero origin2]
  simp only [View.ld_unit_zero (S := S512x256) origin2]
  funext j
  obtain ⟨p, q, rfl⟩ : ∃ (p : Fin 512) (q : Fin 256), j = ix2 p q := ⟨j 0, j 1, eq_ix2 j⟩
  have hemb : ((cfg0.win 3).blk t).view.emb (ix2 p q) = ix2 (rowOf t p) q := by
    obtain ⟨e00, e01, e10, e11, e20, e21, e30, e31, e40, e41, e50, e51⟩ := blockIndex t
    funext a; apply Fin.ext
    match a with
    | ⟨0, _⟩ => show win0_3.index t (0 : Fin 2) * 512 + 1 * p.val = t.val * 512 + p.val; omega
    | ⟨1, _⟩ => show win0_3.index t (1 : Fin 2) * 256 + 1 * q.val = q.val; omega
  show k0_pay3 (F := Ideal) (blkI V c t) (ix2 p q) = ziArr V c (((cfg0.win 3).blk t).view.emb (ix2 p q))
  rw [hemb, pay3_apply]
  exact unit_of_row (blkI V c t) (V c main_arg0) p (rowOf t p) (fun d => blkI_apply V c t p d) q

theorem zk_flushed (c : Dev nD) (t : Fin cfg0.N) :
    (dat0 V c).flushed 4 t = ((cfg0.win 4).blk t).view.read (Elt Ideal) (zkArr V c) := by
  show (cfg0.win 4).cut (grid0.coords t) ((dat0 V c).after 4 t) = _
  rw [after0_4]
  unfold out0_4
  rw [View.canon_unit_zero origin2]
  simp only [View.ld_unit_zero (S := S512x256) origin2]
  funext j
  obtain ⟨p, q, rfl⟩ : ∃ (p : Fin 512) (q : Fin 256), j = ix2 p q := ⟨j 0, j 1, eq_ix2 j⟩
  have hemb : ((cfg0.win 4).blk t).view.emb (ix2 p q) = ix2 (rowOf t p) q := by
    obtain ⟨e00, e01, e10, e11, e20, e21, e30, e31, e40, e41, e50, e51⟩ := blockIndex t
    funext a; apply Fin.ext
    match a with
    | ⟨0, _⟩ => show win0_4.index t (0 : Fin 2) * 512 + 1 * p.val = t.val * 512 + p.val; omega
    | ⟨1, _⟩ => show win0_4.index t (1 : Fin 2) * 256 + 1 * q.val = q.val; omega
  show k0_pay4 (F := Ideal) (blkK V c t) (ix2 p q) = zkArr V c (((cfg0.win 4).blk t).view.emb (ix2 p q))
  rw [hemb, pay4_apply]
  exact unit_of_row (blkK V c t) (V c main_arg2) p (rowOf t p) (fun d => blkK_apply V c t p d) q

theorem pos_flushed (c : Dev nD) (t : Fin cfg0.N) :
    (dat0 V c).flushed 5 t = ((cfg0.win 5).blk t).view.read (Elt Ideal) (posArr V c) := by
  show (cfg0.win 5).cut (grid0.coords t) ((dat0 V c).after 5 t) = _
  rw [after0_5]
  unfold out0_5
  rw [View.canon_unit_zero origin2]
  simp only [View.ld_unit_zero (S := S512x256) origin2]
  funext j
  obtain ⟨p, z, rfl⟩ : ∃ (p : Fin 512) (z : Fin 1), j = ix2 p z := ⟨j 0, j 1, eq_ix2 j⟩
  have hemb : ((cfg0.win 5).blk t).view.emb (ix2 p z) = ix2 (rowOf t p) z := by
    obtain ⟨e00, e01, e10, e11, e20, e21, e30, e31, e40, e41, e50, e51⟩ := blockIndex t
    funext a; apply Fin.ext
    match a with
    | ⟨0, _⟩ => show win0_5.index t (0 : Fin 2) * 512 + 1 * p.val = t.val * 512 + p.val; omega
    | ⟨1, _⟩ => show win0_5.index t (1 : Fin 2) * 1 + 1 * z.val = z.val; omega
  show k0_pay2 (F := Ideal) (blkI V c t) (blkJ V c t) (ix2 p z) = posArr V c (((cfg0.win 5).blk t).view.emb (ix2 p z))
  rw [hemb, pay2_apply]
  show _ = Spec.pos (V c main_arg0) (V c main_arg1) (rowOf t p)
  unfold Spec.pos
  refine Finset.sum_congr rfl fun d _ => ?_
  rw [unit_of_row (blkI V c t) (V c main_arg0) p (rowOf t p) (fun d => blkI_apply V c t p d) d,
    unit_of_row (blkJ V c t) (V c main_arg1) p (rowOf t p) (fun d => blkJ_apply V c t p d) d]

/-! ## The sixteen blocks fill each array -/

theorem mem_ziBlk (t : Fin cfg0.N) (i : S8192x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v0_0).slice (win0_3.rect t)).set ↔ _
  rw [View.set_slice_whole, Rect.mem_set_unit]
  exact Iff.rfl

theorem mem_zkBlk (t : Fin cfg0.N) (i : S8192x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v0_1).slice (win0_4.rect t)).set ↔ _
  rw [View.set_slice_whole, Rect.mem_set_unit]
  exact Iff.rfl

theorem mem_posBlk (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v0_2).slice (win0_5.rect t)).set ↔ _
  rw [View.set_slice_whole, Rect.mem_set_unit]
  exact Iff.rfl

/-- The grid point whose block holds row `b`: `b / 512`. -/
def pointOf (b : Nat) (hb : b < 8192) : Fin cfg0.N := ⟨b / 512, show b / 512 < 16 by omega⟩

theorem zi_cover (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  refine ⟨pointOf (i 0).val hi0, flush0_3 _, ?_⟩
  rw [mem_ziBlk]
  obtain ⟨e00, e01, e10, e11, e20, e21, e30, e31, e40, e41, e50, e51⟩ := blockIndex (pointOf (i 0).val hi0)
  have ht : (pointOf (i 0).val hi0).val = (i 0).val / 512 := rfl
  intro a
  match a with
  | ⟨0, _⟩ =>
    show win0_3.index (pointOf (i 0).val hi0) (0 : Fin 2) * 512 ≤ (i 0).val
      ∧ (i 0).val < win0_3.index (pointOf (i 0).val hi0) (0 : Fin 2) * 512 + 512
    omega
  | ⟨1, _⟩ =>
    show win0_3.index (pointOf (i 0).val hi0) (1 : Fin 2) * 256 ≤ (i 1).val
      ∧ (i 1).val < win0_3.index (pointOf (i 0).val hi0) (1 : Fin 2) * 256 + 256
    omega

theorem zk_cover (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  refine ⟨pointOf (i 0).val hi0, flush0_4 _, ?_⟩
  rw [mem_zkBlk]
  obtain ⟨e00, e01, e10, e11, e20, e21, e30, e31, e40, e41, e50, e51⟩ := blockIndex (pointOf (i 0).val hi0)
  have ht : (pointOf (i 0).val hi0).val = (i 0).val / 512 := rfl
  intro a
  match a with
  | ⟨0, _⟩ =>
    show win0_4.index (pointOf (i 0).val hi0) (0 : Fin 2) * 512 ≤ (i 0).val
      ∧ (i 0).val < win0_4.index (pointOf (i 0).val hi0) (0 : Fin 2) * 512 + 512
    omega
  | ⟨1, _⟩ =>
    show win0_4.index (pointOf (i 0).val hi0) (1 : Fin 2) * 256 ≤ (i 1).val
      ∧ (i 1).val < win0_4.index (pointOf (i 0).val hi0) (1 : Fin 2) * 256 + 256
    omega

theorem pos_cover (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  refine ⟨pointOf (i 0).val hi0, flush0_5 _, ?_⟩
  rw [mem_posBlk]
  obtain ⟨e00, e01, e10, e11, e20, e21, e30, e31, e40, e41, e50, e51⟩ := blockIndex (pointOf (i 0).val hi0)
  have ht : (pointOf (i 0).val hi0).val = (i 0).val / 512 := rfl
  intro a
  match a with
  | ⟨0, _⟩ =>
    show win0_5.index (pointOf (i 0).val hi0) (0 : Fin 2) * 512 ≤ (i 0).val
      ∧ (i 0).val < win0_5.index (pointOf (i 0).val hi0) (0 : Fin 2) * 512 + 512
    omega
  | ⟨1, _⟩ =>
    show win0_5.index (pointOf (i 0).val hi0) (1 : Fin 2) * 1 ≤ (i 1).val
      ∧ (i 1).val < win0_5.index (pointOf (i 0).val hi0) (1 : Fin 2) * 1 + 1
    omega

/-! ## The three output arrays after the run -/

theorem zi_final (c : Dev nD) : (dat0 V c).arrAt 3 cfg0.N = ziArr V c :=
  (dat0 V c).arrAt_eq_of_cover 3 (ziArr V c) (fun t _ => zi_flushed V c t) zi_cover

theorem zk_final (c : Dev nD) : (dat0 V c).arrAt 4 cfg0.N = zkArr V c :=
  (dat0 V c).arrAt_eq_of_cover 4 (zkArr V c) (fun t _ => zk_flushed V c t) zk_cover

theorem pos_final (c : Dev nD) : (dat0 V c).arrAt 5 cfg0.N = posArr V c :=
  (dat0 V c).arrAt_eq_of_cover 5 (posArr V c) (fun t _ => pos_flushed V c t) pos_cover

end Cert.KernelIdeal.Hand

end
-- ==== Proof.Reg1Pay.lean ====
/-
  The second kernel's arithmetic at one row, on the extended reals: eight products of the row block with the
  transposed 1024-row chunks, each times two, exponentiated and summed along its columns, accumulated from zero;
  then log (e^{2p} + that) - 2p.
-/
import proofs.«161965_j29953101922499_1_alg».proof.Proof.Gen.KernelIdeal.Skeleton
import proofs.«161965_j29953101922499_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The eight accumulation steps and the closing logarithm as ONE term of the row block u, the eight chunks ck and the
    positive-logit block p: the payloads composed in the order the kernel body feeds them. -/
def bodyTerm {F : FTy → Type} [FloatOps F] (u : Vec F S1024x256 .bf16) (ck : Fin 8 → Vec F S1024x256 .bf16) (p : Vec F S1024x1 .f32) :
    Vec F S1024x1 .f32 :=
  k1_pay1 (k1_pay5 (k1_pay4 (k1_pay2 (ck 0) u (ck 1) u) (k1_pay3 (ck 2)) u (ck 3) u (ck 4) u) (ck 5) u (ck 6) u)
    (k1_pay6 (ck 7) u) (Scalar.ofBits .f32 0x40000000#32) p

namespace Reg1Pay

/-! ## The product of the row block with a transposed chunk, read at an entry -/

/-- The left operand's row coordinate is the output's row. -/
theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- The left operand's column coordinate is the contraction coordinate. -/
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's row coordinate is the contraction coordinate. -/
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand's column coordinate is the output's column. -/
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product into the zero accumulator at (r, j): the sum over the 256 contraction coordinates d of the left
    operand at (r, d) times the right operand at (d, j). -/
theorem dot_apply (a : FVec Ideal S1024x256 .bf16) (b : FVec Ideal S256x1024 .bf16) (r j : Fin 1024) :
    matmul dot_S1024x256_S256x1024_S1024x1024_1_0_0_1_n_n none a b (constant (F := Ideal) S1024x1024 .f32 0x00000000#32) (ix2 r j)
      = ∑ d : Fin 256, a (ix2 r d) * b (ix2 d j) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r j) ((ValueIdx.contrEquiv1 dot_S1024x256_S256x1024_S1024x1024_1_0_0_1_n_n 256 rfl rfl).symm k) = ix2 r k := funext fun c => Fin.ext (by
    match c with
    | ⟨0, _⟩ => exact lhs_dot_0 _ _
    | ⟨1, _⟩ => exact (lhs_dot_1 _ _).trans hk)
  have er : dot_S1024x256_S256x1024_S1024x1024_1_0_0_1_n_n.rhsIdx (ix2 r j) ((ValueIdx.contrEquiv1 dot_S1024x256_S256x1024_S1024x1024_1_0_0_1_n_n 256 rfl rfl).symm k) = ix2 k j := funext fun c => Fin.ext (by
    match c with
    | ⟨0, _⟩ => exact (rhs_dot_0 _ _).trans hk
    | ⟨1, _⟩ => exact rhs_dot_1 _ _)
  rw [el, er]

/-! ## The column cast and the lane sum, read at an entry -/

/-- A vector of length a cast to a column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a 1024 × 1024 block, read at row r. -/
theorem laneSum_apply (v : FVec Ideal S1024x1024 .f32) (r : Fin 1024) :
    multiReduction (F := Ideal) .add [1] S1024 v 0x00000000#32 reduces_S1024x1024_S1024 (.inl rfl) rfl (ix1 r)
      = ∑ j : Fin 1024, v (ix2 r j) := by
  refine (Ideal.multiReduction_add_single v _ reduces_S1024x1024_S1024 _ _ _).trans ?_
  refine Finset.sum_congr rfl fun k _ => ?_
  exact congrArg v (funext fun c => Fin.ext (by match c with | ⟨0, _⟩ => rfl | ⟨1, _⟩ => rfl))

/-! ## One accumulation step -/

/-- The product of the row block with the transposed chunk. -/
def prodTerm {F : FTy → Type} [FloatOps F] (u ch : Vec F S1024x256 .bf16) : FVec F S1024x1024 .f32 :=
  matmul dot_S1024x256_S256x1024_S1024x1024_1_0_0_1_n_n none (shapeCast S1024x256 u shapeCasts_S1024x256_S1024x256)
    (transpose S256x1024 [1, 0] (shapeCast S1024x256 ch shapeCasts_S1024x256_S1024x256) transposes_S1024x256_p1_0_S256x1024)
    (constant S1024x1024 .f32 0x00000000#32)

/-- A product block times two, exponentiated, summed along its columns, as a column. -/
def expSum {F : FTy → Type} [FloatOps F] (m : FVec F S1024x1024 .f32) : FVec F S1024x1 .f32 :=
  shapeCast S1024x1 (multiReduction .add [1] S1024 (exp (mulf m (broadcast S1024x1024 (Scalar.ofBits .f32 0x40000000#32))))
    0x00000000#32 reduces_S1024x1024_S1024 (.inl rfl) rfl) shapeCasts_S1024_S1024x1

/-- Entry (r, j) of the product: the inner product of row r of the row block with row j of the chunk. -/
theorem prodTerm_apply (u ch : Vec Ideal S1024x256 .bf16) (r j : Fin 1024) :
    prodTerm u ch (ix2 r j) = ∑ d : Fin 256, u (ix2 r d) * ch (ix2 j d) := by
  unfold prodTerm
  rw [shapeCast_self, shapeCast_self]
  refine (dot_apply _ _ r j).trans ?_
  refine Finset.sum_congr rfl fun d _ => ?_
  exact congrArg (u (ix2 r d) * ·) (ValueIdx.transpose_ix2_apply ch transposes_S1024x256_p1_0_S256x1024 d j)

/-- Row r of the exponential sum of a block m: the sum over its columns j of e^{2 m r j}. -/
theorem expSum_apply (m : FVec Ideal S1024x1024 .f32) (r : Fin 1024) :
    expSum m (ix2 r 0) = ∑ j : Fin 1024, Ideal.exp (m (ix2 r j) * Spec.two) := by
  unfold expSum
  refine (shapeCast_a_a1_apply _ shapeCasts_S1024_S1024x1 r 0).trans ?_
  refine (laneSum_apply _ r).trans ?_
  rfl

/-! ## The eight steps and the closing logarithm -/

/-- The body's term, step by step: the eight exponential sums accumulated from the zero column, then the closing
    logarithm with the doubled positive logit. -/
theorem bodyTerm_eq {F : FTy → Type} [FloatOps F] (u : Vec F S1024x256 .bf16) (ck : Fin 8 → Vec F S1024x256 .bf16)
    (p : Vec F S1024x1 .f32) :
    bodyTerm u ck p
      = subf (log (addf (exp (mulf (shapeCast S1024x1 p shapeCasts_S1024x1_S1024x1) (broadcast S1024x1 (Scalar.ofBits .f32 0x40000000#32))))
          (addf (addf (addf (addf (addf (addf (addf (addf (broadcast S1024x1 (Scalar.ofBits .f32 0x00000000#32))
            (expSum (prodTerm u (ck 0)))) (expSum (prodTerm u (ck 1)))) (expSum (prodTerm u (ck 2)))) (expSum (prodTerm u (ck 3))))
            (expSum (prodTerm u (ck 4)))) (expSum (prodTerm u (ck 5)))) (expSum (prodTerm u (ck 6)))) (expSum (prodTerm u (ck 7))))))
          (mulf (shapeCast S1024x1 p shapeCasts_S1024x1_S1024x1) (broadcast S1024x1 (Scalar.ofBits .f32 0x40000000#32))) := rfl

end Reg1Pay

open Reg1Pay in
/-- Row r of the second kernel's block: the logarithm of e^{2 p r} plus, over the eight chunks c and their 1024 rows j,
    e^{2 ⟨u r, ck c j⟩}, minus 2 p r. -/
theorem bodyTerm_apply (u : Vec Ideal S1024x256 .bf16) (ck : Fin 8 → Vec Ideal S1024x256 .bf16) (p : Vec Ideal S1024x1 .f32)
    (r : Fin 1024) :
    bodyTerm u ck p (ix2 r 0)
      = Ideal.log (Ideal.exp (p (ix2 r 0) * Spec.two)
          + ∑ c : Fin 8, ∑ j : Fin 1024, Ideal.exp ((∑ d : Fin 256, u (ix2 r d) * ck c (ix2 j d)) * Spec.two))
        - p (ix2 r 0) * Spec.two := by
  -- at row r every vector operation reads its operands at that row
  have e : bodyTerm u ck p (ix2 r 0)
      = Ideal.log (Ideal.exp (p (ix2 r 0) * Spec.two)
          + ((((((((Ideal.ofBits .f32 0x00000000#32 + expSum (prodTerm u (ck 0)) (ix2 r 0)) + expSum (prodTerm u (ck 1)) (ix2 r 0))
            + expSum (prodTerm u (ck 2)) (ix2 r 0)) + expSum (prodTerm u (ck 3)) (ix2 r 0)) + expSum (prodTerm u (ck 4)) (ix2 r 0))
            + expSum (prodTerm u (ck 5)) (ix2 r 0)) + expSum (prodTerm u (ck 6)) (ix2 r 0)) + expSum (prodTerm u (ck 7)) (ix2 r 0)))
        - p (ix2 r 0) * Spec.two := by
    rw [bodyTerm_eq, shapeCast_self]
    rfl
  -- the zero word is 0, and the eight terms added from the left are the sum over the eight chunks
  rw [e, Ideal.ofBits_zero_f32, zero_add, Fin.sum_univ_eight]
  simp only [expSum_apply, prodTerm_apply]

end Cert.KernelIdeal.Hand

end
-- ==== Proof.Reg1.lean ====
/-
  The second kernel (negatives' sum of exponentials, the loss per row) read as a whole array: grid point t handles
  rows 1024 t … 1024 t + 1023 of the normalized first array and of the positive logits, against ALL 8192 rows of the
  normalized third array, walked in eight chunks of 1024.
-/
import proofs.«161965_j29953101922499_1_alg».proof.Proof.Gen.KernelIdeal.Frame
import proofs.«161965_j29953101922499_1_alg».proof.Proof.Spec
import proofs.«161965_j29953101922499_1_alg».proof.Proof.Reg1Pay
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Tactic
open Idealize.ShloMosaic.Pipeline (Dat)

-- the buffer contents when a kernel is entered: a parameter, which the run instantiates per kernel
variable (V : (c : Dev nD) → (b : Ref sig .tc) → Buf (Elt Ideal) ((c : Thread nD τ).loc b))

/-- The zero offset of a whole-block access, as the constant function. -/
theorem off_zero : (![0, 0] : Fin 2 → Nat) = fun _ => 0 := funext fun a => by fin_cases a <;> rfl

/-- Rows 1024 n … 1024 n + 1023 lie inside the 8192 rows. -/
theorem chunk_inb (n : Fin 8) : ∀ a, (![n.val * 1024, 0] : Fin 2 → Nat) a + S1024x256.size a ≤ S8192x256.size a :=
  Rect.inb₂ (by have := n.isLt; show n.val * 1024 + 1024 ≤ 8192; omega) (by show 0 + 256 ≤ 256; omega)

/-- Chunk n of the resident 8192-row array: its rows 1024 n … 1024 n + 1023. -/
def chunk {F : FTy → Type} [FloatOps F] (x1 : Vec F S8192x256 .bf16) (n : Fin 8) : Vec F S1024x256 .bf16 :=
  View.ld x1 (Rect.unit (s := S8192x256) ![n.val * 1024, 0] S1024x256.size (chunk_inb n))

/-- What the body's one store leaves in the output block: the eight accumulation steps over the eight chunks of the
    resident array and the closing logarithm, of the row block and the positive-logit block. -/
theorem piece_eq {F : FTy → Type} [FloatOps F] (c : Dev nD) (i : grid1.Coords)
    (arg1 : Memref sig .tc .vmem S1024x256 .bf16) (harg1 : arg1.IsWhole)
    (arg2 : Memref sig .tc .vmem S8192x256 .bf16) (harg2 : arg2.IsWhole)
    (arg3 : Memref sig .tc .vmem S1024x1 .f32) (harg3 : arg3.IsWhole)
    (arg4 : Memref sig .tc .vmem S1024x1 .f32) (harg4 : arg4.IsWhole)
    (x0 : Vec F S1024x256 .bf16) (x1 : Vec F S8192x256 .bf16) (x2 : Vec F S1024x1 .f32) :
    out1_A_3 c i arg1 harg1 arg2 harg2 arg3 harg3 arg4 harg4 x0 x1 x2 = bodyTerm x0 (chunk x1) x2 := by
  unfold out1_A_3
  rw [View.read_writes_eq_canon _ _ _ (cover1_A_3 c i arg1 harg1 arg2 harg2 arg3 harg3 arg4 harg4 x0 x1 x2)]
  unfold kernelRun1_A
  dsimp only
  sl_unfold_words
  rw [View.canon_unit_zero off_zero]
  simp only [View.readAt_eq_ld, harg1.read_unread, harg2.read_unread, harg3.read_unread,
    View.ld_unit_zero (S := S1024x256) off_zero, View.ld_unit_zero (S := S1024x1) off_zero]
  rfl

/-- Chunk n read at row j and column d is row 1024 n + j of the resident array. -/
theorem chunk_apply (w : Vec Ideal S8192x256 .bf16) (n : Fin 8) (j : Fin 1024) (d : Fin 256) :
    chunk w n (ix2 j d) = w (ix2 ⟨n.val * 1024 + j.val, by omega⟩ d) := by
  show w _ = w _
  congr 1
  funext a
  apply Fin.ext
  match a with
  | ⟨0, _⟩ => show n.val * 1024 + 1 * j.val = n.val * 1024 + j.val; omega
  | ⟨1, _⟩ => show 0 + 1 * d.val = d.val; omega

/-- One row of the block's arithmetic is the row loss of the three arrays, when the row block's row r is the first
    array's row b, the resident array is the second array, and the positive-logit block's row r is the third array's
    row b: the eight chunks of 1024 rows are the 8192 rows, chunk by chunk. -/
theorem row_eq (A B : Spec.Mat) (P : Spec.Col)
    (u : Vec Ideal S1024x256 .bf16) (w : Vec Ideal S8192x256 .bf16) (p : Vec Ideal S1024x1 .f32)
    (r : Fin 1024) (b : Fin 8192)
    (hu : ∀ d : Fin 256, (u (ix2 r d) : EReal) = A (ix2 b d))
    (hw : ∀ (k : Fin 8192) (d : Fin 256), (w (ix2 k d) : EReal) = B (ix2 k d))
    (hp : (p (ix2 r 0) : EReal) = P (ix2 b 0)) :
    (bodyTerm u (chunk w) p (ix2 r 0) : EReal) = Spec.rowLossOf A B P b := by
  rw [bodyTerm_apply]
  unfold Spec.rowLossOf
  rw [Spec.sum_chunks (fun k : Fin 8192 => Ideal.exp ((∑ d : Fin 256, A (ix2 b d) * B (ix2 k d)) * Spec.two))]
  have hs : ∀ (n : Fin 8) (j : Fin 1024),
      (∑ d : Fin 256, u (ix2 r d) * chunk w n (ix2 j d) : EReal)
        = ∑ d : Fin 256, A (ix2 b d) * B (ix2 ⟨n.val * 1024 + j.val, by omega⟩ d) :=
    fun n j => Finset.sum_congr rfl fun d _ => by rw [chunk_apply, hu, hw]
  simp only [hs]
  rw [hp]

/-- The printed index maps over the eight grid points: the row block, the positive logits and the output move with the
    point, the resident array stays at block (0, 0). -/
theorem idx_facts : ∀ t : Fin cfg1.N, t.val < 8
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The row block at point t: rows 1024 t … 1024 t + 1023 of the first array. -/
abbrev rowBlk (c : Dev nD) (t : Fin cfg1.N) : Vec Ideal S1024x256 .bf16 := iblk1 V c 0 t
/-- The resident block at point t: the whole second array. -/
abbrev resBlk (c : Dev nD) (t : Fin cfg1.N) : Vec Ideal S8192x256 .bf16 := iblk1 V c 1 t
/-- The positive-logit block at point t: rows 1024 t … 1024 t + 1023 of the third array. -/
abbrev posBlk (c : Dev nD) (t : Fin cfg1.N) : Vec Ideal S1024x1 .f32 := iblk1 V c 2 t

/-- Row r of the row block at point t is row 1024 t + r of the first array. -/
theorem rowBlk_apply (c : Dev nD) (t : Fin cfg1.N) (r : Fin 1024) (d : Fin 256) (b : Fin 8192)
    (hb : b.val = 1024 * t.val + r.val) :
    (rowBlk V c t (ix2 r d) : EReal) = (V c main_v0_0 : Spec.Mat) (ix2 b d) := by
  obtain ⟨-, e0, e1, -⟩ := idx_facts t
  unfold rowBlk iblk1
  rw [View.read_apply]
  show (V c main_v0_0 : Spec.Mat) _ = (V c main_v0_0 : Spec.Mat) _
  congr 1
  funext a
  apply Fin.ext
  match a with
  | ⟨0, _⟩ => show win1_0.index t (0 : Fin 2) * 1024 + 1 * r.val = b.val; rw [e0, hb]; omega
  | ⟨1, _⟩ => show win1_0.index t (1 : Fin 2) * 256 + 1 * d.val = d.val; rw [e1]; omega

/-- The resident block at any point is the second array itself, row by row. -/
theorem resBlk_apply (c : Dev nD) (t : Fin cfg1.N) (k : Fin 8192) (d : Fin 256) :
    (resBlk V c t (ix2 k d) : EReal) = (V c main_v0_1 : Spec.Mat) (ix2 k d) := by
  obtain ⟨-, -, -, e0, e1, -⟩ := idx_facts t
  unfold resBlk iblk1
  rw [View.read_apply]
  show (V c main_v0_1 : Spec.Mat) _ = (V c main_v0_1 : Spec.Mat) _
  congr 1
  funext a
  apply Fin.ext
  match a with
  | ⟨0, _⟩ => show win1_1.index t (0 : Fin 2) * 8192 + 1 * k.val = k.val; rw [e0]; omega
  | ⟨1, _⟩ => show win1_1.index t (1 : Fin 2) * 256 + 1 * d.val = d.val; rw [e1]; omega

/-- Row r of the positive-logit block at point t is row 1024 t + r of the third array. -/
theorem posBlk_apply (c : Dev nD) (t : Fin cfg1.N) (r : Fin 1024) (b : Fin 8192)
    (hb : b.val = 1024 * t.val + r.val) :
    (posBlk V c t (ix2 r 0) : EReal) = (V c main_v0_2 : Spec.Col) (ix2 b 0) := by
  obtain ⟨-, -, -, -, -, e0, e1, -⟩ := idx_facts t
  unfold posBlk iblk1
  rw [View.read_apply]
  show (V c main_v0_2 : Spec.Col) _ = (V c main_v0_2 : Spec.Col) _
  congr 1
  funext a
  apply Fin.ext
  match a with
  | ⟨0, _⟩ => show win1_2.index t (0 : Fin 2) * 1024 + 1 * r.val = b.val; rw [e0, hb]; omega
  | ⟨1, _⟩ => show win1_2.index t (1 : Fin 2) * 1 + 1 * 0 = 0; rw [e1]

/-- The per-row losses, from the first kernel's three output arrays as the second kernel finds them. -/
abbrev lossArr (c : Dev nD) : Buf (Elt Ideal) ((c : Thread nD τ).loc main_v1) :=
  fun i => Spec.rowLossOf (V c main_v0_0) (V c main_v0_1) (V c main_v0_2) (i 0)

/-- WHAT POINT t WRITES BACK is block t of the per-row losses: row r of the block is row 1024 t + r of the arrays. -/
theorem flushed_eq (c : Dev nD) (t : Fin cfg1.N) :
    (dat1 V c).flushed 3 t = ((cfg1.win 3).blk t).view.read (Elt Ideal) (lossArr V c) := by
  show (cfg1.win 3).cut (grid1.coords t) ((dat1 V c).after 3 t) = _
  rw [after1_3]
  unfold outsAt1
  rw [piece_eq]
  obtain ⟨ht, -, -, -, -, -, -, e0, e1⟩ := idx_facts t
  funext y
  obtain ⟨r, q, rfl⟩ : ∃ (r : Fin 1024) (q : Fin 1), y = ix2 r q := ⟨y 0, y 1, eq_ix2 y⟩
  obtain rfl : q = 0 := Subsingleton.elim _ _
  have hb : (⟨1024 * t.val + r.val, by omega⟩ : Fin 8192).val = 1024 * t.val + r.val := rfl
  refine (row_eq (V c main_v0_0) (V c main_v0_1) (V c main_v0_2) (rowBlk V c t) (resBlk V c t) (posBlk V c t) r
    ⟨1024 * t.val + r.val, by omega⟩ (fun d => rowBlk_apply V c t r d _ hb) (fun k d => resBlk_apply V c t k d)
    (posBlk_apply V c t r _ hb)).trans ?_
  rw [View.read_apply]
  show Spec.rowLossOf (V c main_v0_0) (V c main_v0_1) (V c main_v0_2) _ = Spec.rowLossOf (V c main_v0_0) (V c main_v0_1) (V c main_v0_2) _
  congr 1
  apply Fin.ext
  show 1024 * t.val + r.val = win1_3.index t (0 : Fin 2) * 1024 + 1 * r.val
  rw [e0]; omega

/-- An index of the output array is in point t's block iff each coordinate is in the block's range on its axis. -/
theorem mem_blk (t : Fin cfg1.N) (i : S8192x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v1).slice (win1_3.rect t)).set ↔ _
  rw [View.set_slice_whole, Rect.mem_set_unit]
  exact Iff.rfl

/-- Every block of the output is some point's: block q is point q's. -/
theorem idx_onto : ∀ q : Fin 8, ∃ t : Fin cfg1.N, win1_3.index t (0 : Fin 2) = q.val ∧ win1_3.index t (1 : Fin 2) = 0 :=
  (by decide +kernel : ∀ q : Fin 8, ∃ t : Fin grid1.N, win1_3.index t (0 : Fin 2) = q.val ∧ win1_3.index t (1 : Fin 2) = 0)

/-- Row b of the output is in the block of point b / 1024. -/
theorem covered (i : S8192x1.Idx) : ∃ t : Fin cfg1.N, (cfg1.win 3).flush t = true ∧ i ∈ ((cfg1.win 3).blk t).view.set := by
  have hi0 : (i 0).val < 8192 := (i 0).isLt
  have hi1 : (i 1).val < 1 := (i 1).isLt
  obtain ⟨t, q0, q1⟩ := idx_onto ⟨(i 0).val / 1024, by omega⟩
  have q0' : win1_3.index t (0 : Fin 2) = (i 0).val / 1024 := q0
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1 ≤ (i 1).val ∧ (i 1).val < win1_3.index t (1 : Fin 2) * 1 + 1; omega

/-- THE ARRAY after the second kernel's run: the per-row losses of its three input arrays. -/
theorem loss_final (c : Dev nD) : (dat1 V c).arrAt 3 cfg1.N = lossArr V c :=
  (dat1 V c).arrAt_eq_of_cover 3 (lossArr V c) (fun t _ => flushed_eq V c t) (covered)

end Cert.KernelIdeal.Hand

end
-- ==== Proof.KValue.lean ====
/-
  The kernel program's result: the mean over the batch of the per-row losses the second kernel leaves, those read
  from the first kernel's normalized arrays, those from the arguments.
-/
import proofs.«161965_j29953101922499_1_alg».proof.Proof.Gen.KernelIdeal.Frame
import proofs.«161965_j29953101922499_1_alg».proof.Proof.Spec
import proofs.«161965_j29953101922499_1_alg».proof.Proof.Reg0
import proofs.«161965_j29953101922499_1_alg».proof.Proof.Reg1
import proofs.«161965_j29953101922499_1_alg».proof.Proof.KRun
import Idealize.ShloMosaic.Lib.StableHlo.Run
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the second kernel finds in its three input arrays: the first kernel's outputs, as functions of the arguments. -/
theorem v0_0_eq (c : Dev nD) : V1 m ρ c main_v0_0 = ziArr (V0 m ρ) c := (W1_arr m ρ c 3).trans (zi_final (V0 m ρ) c)
theorem v0_1_eq (c : Dev nD) : V1 m ρ c main_v0_1 = zkArr (V0 m ρ) c := (W1_arr m ρ c 4).trans (zk_final (V0 m ρ) c)
theorem v0_2_eq (c : Dev nD) : V1 m ρ c main_v0_2 = posArr (V0 m ρ) c := (W1_arr m ρ c 5).trans (pos_final (V0 m ρ) c)

/-- What the closing mean finds in the per-row loss array: the second kernel's output. -/
theorem v1_eq (c : Dev nD) : W2 m ρ c (Proc.devRef .tc main_v1) = lossArr (V1 m ρ) c :=
  (W2_arr m ρ c 3).trans (loss_final (V1 m ρ) c)

/-- Row b of that array is sample b's loss of the three argument arrays. -/
theorem lossArr_apply (c : Dev nD) (b : Fin 8192) :
    lossArr (V1 m ρ) c (ix2 b 0)
      = Spec.rowLoss (m ((c.tc : Thread nD τ).loc main_arg0)) (m ((c.tc : Thread nD τ).loc main_arg1)) (m ((c.tc : Thread nD τ).loc main_arg2)) b := by
  show Spec.rowLossOf (V1 m ρ c main_v0_0) (V1 m ρ c main_v0_1) (V1 m ρ c main_v0_2) b = _
  rw [v0_0_eq, v0_1_eq, v0_2_eq]
  exact Spec.rowLossOf_unit _ _ _ b

/-- The result buffer after the run: the sum of the 8192 × 1 loss array from zero, divided by 8192, is the loss of the
    three argument arrays. -/
theorem result_eq (c : Dev nD) :
    W3 m ρ c (Proc.devRef .tc main_v3)
      = fun _ => Spec.loss (m ((c.tc : Thread nD τ).loc main_arg0)) (m ((c.tc : Thread nD τ).loc main_arg1)) (m ((c.tc : Thread nD τ).loc main_arg2)) := by
  show StableHlo.after hostOps2 (W2 m ρ c) (Proc.devRef .tc main_v3) = _
  after_results
  rw [v1_eq]
  funext i
  simp only [Host.divf, Host.reduceAdd, Ideal.hostReduceAdd_def, Ideal.hostDivf_def]
  rw [Ideal.hostReduceAdd_total reducesTo_S8192x1_S_d0_1 (fun b => b.elim0)]
  unfold Spec.loss Spec.cnt
  rw [ValueIdx.sum_idx2]
  simp only [Fin.sum_univ_one]
  have hsum : @Finset.sum (Fin 8192) EReal _ Finset.univ (fun x => lossArr (V1 m ρ) c (ix2 x 0))
      = ∑ b : Fin 8192, Spec.rowLoss (m ((c.tc : Thread nD τ).loc main_arg0)) (m ((c.tc : Thread nD τ).loc main_arg1))
          (m ((c.tc : Thread nD τ).loc main_arg2)) b :=
    Finset.sum_congr rfl fun b _ => lossArr_apply m ρ c b
  rw [hsum]
  show Ideal.div (Ideal.ofBits .f32 0x00000000#32 + _) _ = _
  rw [Ideal.ofBits_zero_f32, zero_add]
  rfl

/-- The run with its result named: the result buffer ends at the loss of the three argument arrays, which end as launched. -/
theorem run_value : θ_run defs (onTc (τ := τ) (main (F := Ideal))) ⟨m, fun _ => 0, ρ⟩ (fun r => ∀ c : Dev nD,
      r.2.mem ((c.tc : Thread nD τ).loc main_v3)
        = (fun _ => Spec.loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_named (F := Ideal) m ρ)

end Cert.KernelIdeal.Hand

end
-- ==== Proof.LibSumIdx1.lean ====
/-
  A sum over the index set of a rank-1 array is the sum over its one coordinate.
-/
import Idealize.ShloMosaic.Lib.ValueIdx

noncomputable section

open scoped BigOperators

namespace Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate, in any commutative monoid. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx

end
-- ==== Proof.RefValue.lean ====
/-
  The reference program's result, read index by index on the extended reals: the same loss, with the temperature
  as a division by one half and each sum taken whole.
-/
import proofs.«161965_j29953101922499_1_alg».proof.Defs
import proofs.«161965_j29953101922499_1_alg».proof.Proof.Gen.ReferenceIdeal.Run
import proofs.«161965_j29953101922499_1_alg».proof.Proof.Gen.ReferenceIdeal.Read
import proofs.«161965_j29953101922499_1_alg».proof.Proof.Spec
import proofs.«161965_j29953101922499_1_alg».proof.Proof.LibSumIdx1

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- An 8192 × 256 argument array at the ideal instance. -/
abbrev Arr : Type := (⟨S8192x256, .f32⟩ : BufTy).Contents (Elt Ideal)

/-- The first normalization: the array over its clamped row norm is the specification's unit row. The row's
    sum of squares starts from the zero word, the norm is the square root, the clamp a maximum with the
    constant word, and the quotient is taken entry by entry against the row's one clamped norm. -/
theorem unit0 (x : Arr) (b : Fin 8192) (d : Fin 256) :
    val_main_v4 (F := Ideal) x (ix2 b d) = Spec.unitRow x b d := by
  rw [val_main_v4_apply, val_main_v3_apply, val_main_v2_apply, val_main_v0_apply, val_main_v1_apply,
    val_main_cst_apply, val_main_call0_v2_apply, val_main_call0_v1_apply, val_main_call0_cst_apply]
  simp only [val_main_call0_v0_apply, Ideal.hostDivf_def, Ideal.maximumf_def, Ideal.hostUnary_sqrt_def,
    Ideal.ofBits_def, Ideal.ofBits_zero_f32, zero_add, Ideal.mulf_def]
  have hk : ∀ k : Fin 256,
      idx_main_call0_v1 (idx_main_call0_v2 (idx_main_v3 (ix2 b d))) k = ix2 b k := fun k =>
    funext fun a => Fin.ext (by match a with | ⟨0, _⟩ => rfl | ⟨1, _⟩ => rfl)
  simp only [hk]
  rfl

/-- The second and third normalizations are the same function of their arrays. -/
theorem unit1 (x : Arr) (b : Fin 8192) (d : Fin 256) :
    val_main_v9 (F := Ideal) x (ix2 b d) = Spec.unitRow x b d := unit0 x b d
theorem unit2 (x : Arr) (b : Fin 8192) (d : Fin 256) :
    val_main_v14 (F := Ideal) x (ix2 b d) = Spec.unitRow x b d := unit0 x b d

/-- The positive logit before the temperature: the row sum, from the zero word, of the products of the first two
    arrays' unit rows. -/
theorem pos_eq (x0 x1 : Arr) (b : Fin 8192) :
    val_main_v16 (F := Ideal) x0 x1 (ix1 b) = Spec.pos x0 x1 b := by
  rw [val_main_v16_apply, val_main_cst_2_apply]
  simp only [Ideal.ofBits_def, Ideal.ofBits_zero_f32, zero_add]
  unfold Spec.pos
  refine Finset.sum_congr rfl fun k _ => ?_
  have hk : idx_main_v16 (ix1 b) k = ix2 b k :=
    funext fun a => Fin.ext (by match a with | ⟨0, _⟩ => rfl | ⟨1, _⟩ => rfl)
  rw [hk, val_main_v15_apply, unit0, unit1]
  rfl

/-- The positive logit: the quotient by the broadcast one half is the product with two. -/
theorem logit_eq (x0 x1 : Arr) (b : Fin 8192) :
    val_main_v19 (F := Ideal) x0 x1 (ix1 b) = Spec.pos x0 x1 b * Spec.two := by
  rw [val_main_v19_apply, val_main_v18_apply, val_main_cst_3_apply, pos_eq]
  exact Spec.div_half _

/-- The similarity matrix: the contraction over the 256 columns of the first array's unit row b against the third
    array's unit row k. -/
theorem sim_eq (x0 x2 : Arr) (b k : Fin 8192) :
    val_main_v17 (F := Ideal) x0 x2 (ix2 b k) = Spec.sim x0 x2 b k := by
  rw [val_main_v17_apply]
  unfold Spec.sim
  refine Finset.sum_congr rfl fun d _ => ?_
  have hl : lidx_main_v17 (ix2 b k) d = ix2 b d :=
    funext fun a => Fin.ext (by match a with | ⟨0, _⟩ => rfl | ⟨1, _⟩ => rfl)
  have hr : ridx_main_v17 (ix2 b k) d = ix2 k d :=
    funext fun a => Fin.ext (by match a with | ⟨0, _⟩ => rfl | ⟨1, _⟩ => rfl)
  rw [hl, hr, unit0, unit2]

/-- The negatives' sum of row b: from the zero word, the exponentials of the similarities over the temperature. -/
theorem negs_eq (x0 x2 : Arr) (b : Fin 8192) :
    val_main_v24 (F := Ideal) x0 x2 (ix1 b) = ∑ k : Fin 8192, Ideal.exp (Spec.sim x0 x2 b k * Spec.two) := by
  rw [val_main_v24_apply, val_main_cst_5_apply]
  simp only [Ideal.ofBits_def, Ideal.ofBits_zero_f32, zero_add]
  refine Finset.sum_congr rfl fun k _ => ?_
  have hk : idx_main_v24 (ix1 b) k = ix2 b k :=
    funext fun a => Fin.ext (by match a with | ⟨0, _⟩ => rfl | ⟨1, _⟩ => rfl)
  rw [hk, val_main_v23_apply, val_main_v22_apply, val_main_v21_apply, val_main_cst_4_apply, sim_eq]
  exact congrArg Ideal.exp (Spec.div_half _)

/-- Sample b's loss: the logarithm of the positive's exponential plus the negatives' sum, less the positive logit. -/
theorem row_eq (x0 x1 x2 : Arr) (b : Fin 8192) :
    val_main_v27 (F := Ideal) x0 x1 x2 (ix1 b) = Spec.rowLoss x0 x1 x2 b := by
  rw [val_main_v27_apply, val_main_v26_apply, val_main_v25_apply, val_main_v20_apply, logit_eq, negs_eq]
  rfl

/-- The reference's last stage is the loss of its three arguments: the sum over the samples, from the zero word,
    over the count 8192. -/
theorem ref_eq (x0 x1 x2 : (⟨S8192x256, .f32⟩ : BufTy).Contents (Elt Ideal)) :
    val_main_v29 (F := Ideal) x0 x1 x2 = fun _ => Spec.loss x0 x1 x2 := by
  funext i
  rw [val_main_v29_apply, val_main_v28_apply, val_main_cst_6_apply, val_main_cst_7_apply, ValueIdx.sum_idx1]
  simp only [Ideal.ofBits_def, Ideal.ofBits_zero_f32, zero_add, Ideal.hostDivf_def, row_eq]
  rfl

end Cert.ReferenceIdeal.RefValue

end
-- ==== Proof.lean ====
/-
  The certificate of the contrastive-loss kernel pair against its jnp reference.
  Both programs compute, for every sample b, log (e^{2 pos b} + Σ_k e^{2 sim b k}) - 2 pos b over rows normalized by
  their clamped Euclidean norms, and return the mean over the 8192 samples. The kernel program normalizes in one kernel
  (blocks of 512 rows) and sums the exponentials in a second (blocks of 1024 rows, the 8192 columns walked in eight
  chunks, the temperature as a product with 2); the reference divides by one half and takes each sum whole. On the
  extended reals the two are one function: division by one half is the product with two, and the eight chunk sums
  add up to the whole sum. The frames of the two kernel programs are the generated ones; the reference's frame is its
  generated run; nothing was rewritten by the idealization, so there is nothing to preserve.
-/
import proofs.«161965_j29953101922499_1_alg».proof.Defs
import proofs.«161965_j29953101922499_1_alg».proof.Proof.Gen.Kernel
import proofs.«161965_j29953101922499_1_alg».proof.Proof.Gen.Kernel.Skeleton
import proofs.«161965_j29953101922499_1_alg».proof.Proof.Gen.Kernel.Launch
import proofs.«161965_j29953101922499_1_alg».proof.Proof.Gen.Kernel.Points
import proofs.«161965_j29953101922499_1_alg».proof.Proof.Gen.Kernel.Frame
import proofs.«161965_j29953101922499_1_alg».proof.Proof.Gen.KernelIdeal
import proofs.«161965_j29953101922499_1_alg».proof.Proof.Gen.KernelIdeal.Skeleton
import proofs.«161965_j29953101922499_1_alg».proof.Proof.Gen.KernelIdeal.Launch
import proofs.«161965_j29953101922499_1_alg».proof.Proof.Gen.KernelIdeal.Points
import proofs.«161965_j29953101922499_1_alg».proof.Proof.Gen.KernelIdeal.Frame
import proofs.«161965_j29953101922499_1_alg».proof.Proof.Gen.ReferenceIdeal
import proofs.«161965_j29953101922499_1_alg».proof.Proof.Gen.ReferenceIdeal.Run
import proofs.«161965_j29953101922499_1_alg».proof.Proof.Gen.ReferenceIdeal.Read
import proofs.«161965_j29953101922499_1_alg».proof.Proof.Gen.Pre_finite_inputs
import proofs.«161965_j29953101922499_1_alg».proof.Proof.Spec
import proofs.«161965_j29953101922499_1_alg».proof.Proof.KValue
import proofs.«161965_j29953101922499_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end at the loss of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
